-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384x32 : Shape := ⟨2, ![16384, 32]⟩
abbrev S16385 : Shape := ⟨1, ![16385]⟩
abbrev S1048576 : Shape := ⟨1, ![1048576]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S4096x16384 .f32) (main_arg1 : FVec F S16384x32 .f32) (main_arg2 : FVec F S16384x32 .f32) (main_arg3 : IVec S16385 32) (main_arg4 : IVec S1048576 32) (main_arg5 : FVec F S1048576 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S1048576 .f32 := Host.absf main_arg5
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S4096x16384 : Shape := ⟨2, ![4096, 16384]⟩
abbrev S16384x32 : Shape := ⟨2, ![16384, 32]⟩
abbrev S16385 : Shape := ⟨1, ![16385]⟩
abbrev S1048576 : Shape := ⟨1, ![1048576]⟩
abbrev S4096x32 : Shape := ⟨2, ![4096, 32]⟩
abbrev S128x16384 : Shape := ⟨2, ![128, 16384]⟩
abbrev S128x32 : Shape := ⟨2, ![128, 32]⟩
abbrev S1024x32 : Shape := ⟨2, ![1024, 32]⟩
abbrev S1024x4096 : Shape := ⟨2, ![1024, 4096]⟩

abbrev nBuf : Space → Nat
  | .hbm => 8
  | .vmem => 11
  | .smem => 0
  | _ => 0

abbrev bufTy : (tb : Table) → Fin (tcTables nBuf tb) → BufTy
  | .hbm, ⟨0, _⟩ => ⟨S4096x16384, .f32⟩
  | .hbm, ⟨1, _⟩ => ⟨S16384x32, .f32⟩
  | .hbm, ⟨2, _⟩ => ⟨S16384x32, .f32⟩
  | .hbm, ⟨3, _⟩ => ⟨S16385, .i32⟩
  | .hbm, ⟨4, _⟩ => ⟨S1048576, .i32⟩
  | .hbm, ⟨5, _⟩ => ⟨S1048576, .f32⟩
  | .hbm, ⟨6, _⟩ => ⟨S4096x32, .f32⟩
  | .hbm, ⟨7, _⟩ => ⟨S4096x16384, .f32⟩
  | .local _ .vmem, ⟨0, _⟩ => ⟨S128x16384, .f32⟩
  | .local _ .vmem, ⟨1, _⟩ => ⟨S128x16384, .f32⟩
  | .local _ .vmem, ⟨2, _⟩ => ⟨S16384x32, .f32⟩
  | .local _ .vmem, ⟨3, _⟩ => ⟨S128x32, .f32⟩
  | .local _ .vmem, ⟨4, _⟩ => ⟨S128x32, .f32⟩
  | .local _ .vmem, ⟨5, _⟩ => ⟨S1024x32, .f32⟩
  | .local _ .vmem, ⟨6, _⟩ => ⟨S1024x32, .f32⟩
  | .local _ .vmem, ⟨7, _⟩ => ⟨S4096x32, .f32⟩
  | .local _ .vmem, ⟨8, _⟩ => ⟨S4096x32, .f32⟩
  | .local _ .vmem, ⟨9, _⟩ => ⟨S1024x4096, .f32⟩
  | .local _ .vmem, ⟨10, _⟩ => ⟨S1024x4096, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S16384x32_S16384x32_0_0 : ∀ a, (![0, 0] : Fin 2 → Nat) a + S16384x32.size a ≤ S16384x32.size a
  h_S16384x32 : 0 < S16384x32.numel
  inb_S128x32_S128x32_0_0 : ∀ a, (![0, 0] : Fin 2 → Nat) a + S128x32.size a ≤ S128x32.size a
  h_S128x32 : 0 < S128x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S4096x32_S4096x32_0_0 : ∀ a, (![0, 0] : Fin 2 → Nat) a + S4096x32.size a ≤ S4096x32.size a
  h_S4096x32 : 0 < S4096x32.numel
  inb_S1024x4096_S1024x4096_0_0 : ∀ a, (![0, 0] : Fin 2 → Nat) a + S1024x4096.size a ≤ S1024x4096.size a
  h_S1024x4096 : 0 < S1024x4096.numel
  dot_S128x16384_S16384x32_S128x32_1_0_0_1_n_n_wf : DotDims.WF S128x16384 S16384x32 S128x32 [1] [0] [0] [1] [] []
  dot_S1024x32_S4096x32_S1024x4096_1_1_0_0_n_n_wf : DotDims.WF S1024x32 S4096x32 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S4096x32.size a
  hwx0_2 : ∀ i : grid0.Coords, EltTy.bits .f32 = 32 ∨ (Rect.block (s := S4096x32) S128x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S4096x32.size a
  hwx1_0 : ∀ i : grid1.Coords, EltTy.bits .f32 = 32 ∨ (Rect.block (s := S4096x32) S1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S16384x32.size a
  hwx1_1 : ∀ i : grid1.Coords, EltTy.bits .f32 = 32 ∨ (Rect.block (s := S16384x32) S4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S4096x16384.size a
  hwx1_2 : ∀ i : grid1.Coords, EltTy.bits .f32 = 32 ∨ (Rect.block (s := S4096x16384) S1024x4096.size (cc1_transform_2 i) (hinb1_2 i)).WholeWords (EltTy.packing .f32)

variable [Facts₀]

def dot_S128x16384_S16384x32_S128x32_1_0_0_1_n_n : DotDims S128x16384 S16384x32 S128x32 where
  lhsContracting := [1]
  rhsContracting := [0]
  lhsNonContracting := [0]
  rhsNonContracting := [1]
  lhsBatch := []
  rhsBatch := []
  wf := dot_S128x16384_S16384x32_S128x32_1_0_0_1_n_n_wf
def dot_S1024x32_S4096x32_S1024x4096_1_1_0_0_n_n : DotDims S1024x32 S4096x32 S1024x4096 where
  lhsContracting := [1]
  rhsContracting := [1]
  lhsNonContracting := [0]
  rhsNonContracting := [0]
  lhsBatch := []
  rhsBatch := []
  wf := dot_S1024x32_S4096x32_S1024x4096_1_1_0_0_n_n_wf

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x16384 : Shape := ⟨2, ![4096, 16384]⟩
abbrev S16384x32 : Shape := ⟨2, ![16384, 32]⟩
abbrev S16385 : Shape := ⟨1, ![16385]⟩
abbrev S1048576 : Shape := ⟨1, ![1048576]⟩
abbrev S4096x32 : Shape := ⟨2, ![4096, 32]⟩
abbrev S32x16384 : Shape := ⟨2, ![32, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x32, .f32⟩
  | .hbm, ⟨2, _⟩ => ⟨S16384x32, .f32⟩
  | .hbm, ⟨3, _⟩ => ⟨S16385, .i32⟩
  | .hbm, ⟨4, _⟩ => ⟨S1048576, .i32⟩
  | .hbm, ⟨5, _⟩ => ⟨S1048576, .f32⟩
  | .hbm, ⟨6, _⟩ => ⟨S4096x32, .f32⟩
  | .hbm, ⟨7, _⟩ => ⟨S32x16384, .f32⟩
  | .hbm, ⟨8, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  transposes_S16384x32_S32x16384_1_0 : S16384x32.Transposes [1, 0] S32x16384
  dot_S4096x16384_S16384x32_S4096x32_1_0_0_1_n_n_wf : DotDims.WF S4096x16384 S16384x32 S4096x32 [1] [0] [0] [1] [] []
  dot_S4096x32_S32x16384_S4096x16384_1_0_0_1_n_n_wf : DotDims.WF S4096x32 S32x16384 S4096x16384 [1] [0] [0] [1] [] []

variable [Facts₀]

def dot_S4096x16384_S16384x32_S4096x32_1_0_0_1_n_n : DotDims S4096x16384 S16384x32 S4096x32 where
  lhsContracting := [1]
  rhsContracting := [0]
  lhsNonContracting := [0]
  rhsNonContracting := [1]
  lhsBatch := []
  rhsBatch := []
  wf := dot_S4096x16384_S16384x32_S4096x32_1_0_0_1_n_n_wf
def dot_S4096x32_S32x16384_S4096x16384_1_0_0_1_n_n : DotDims S4096x32 S32x16384 S4096x16384 where
  lhsContracting := [1]
  rhsContracting := [0]
  lhsNonContracting := [0]
  rhsNonContracting := [1]
  lhsBatch := []
  rhsBatch := []
  wf := dot_S4096x32_S32x16384_S4096x16384_1_0_0_1_n_n_wf

class Facts : Prop extends Facts₀ where

variable [Facts]
-- ==== Proof.LowRankSpec.lean ====
/-
  The low-rank projection as two whole-array functions over the extended reals.

  With spikes `s : [4096, 16384]`, factors `v, u : [16384, 32]`:
    `project s v` is the low-dimensional code   z[b, r] = ∑ k, s[b, k] · v[k, r]        (k over the 16384 inputs),
    `reconstruct z u` the read-out              y[b, n] = ∑ r, z[b, r] · u[n, r]        (r over the 32 ranks),
  so `reconstruct (project s v) u` is (s · v) · uᵀ with the products grouped exactly so: the inner sum is
  formed first and then multiplied by the entry of `u`. Both programs compute it in this grouping, so no
  law of the extended reals beyond the definition of a finite sum is needed to compare them.
-/
import Idealize.ShloMosaic.PureOps.Ideal
import Idealize.ShloMosaic.Lib.ValueIdx

noncomputable section

namespace Cert.LowRank

open Idealize.ShloMosaic Idealize.ShloMosaic.ValueIdx

/-- The low-dimensional code: row `b` of the spikes against column `r` of `v`. -/
def project (s : (⟨2, ![4096, 16384]⟩ : Shape).Idx → EReal) (v : (⟨2, ![16384, 32]⟩ : Shape).Idx → EReal) :
    (⟨2, ![4096, 32]⟩ : Shape).Idx → EReal :=
  fun i => ∑ k : Fin 16384, s (ix2 (i 0) k) * v (ix2 k (i 1))

/-- The read-out: row `b` of the code against ROW `n` of `u` (the product with `u` transposed). -/
def reconstruct (z : (⟨2, ![4096, 32]⟩ : Shape).Idx → EReal) (u : (⟨2, ![16384, 32]⟩ : Shape).Idx → EReal) :
    (⟨2, ![4096, 16384]⟩ : Shape).Idx → EReal :=
  fun i => ∑ r : Fin 32, z (ix2 (i 0) r) * u (ix2 (i 1) r)

theorem project_apply (s : (⟨2, ![4096, 16384]⟩ : Shape).Idx → EReal) (v : (⟨2, ![16384, 32]⟩ : Shape).Idx → EReal)
    (b : Fin 4096) (r : Fin 32) : project s v (ix2 b r) = ∑ k : Fin 16384, s (ix2 b k) * v (ix2 k r) := rfl

theorem reconstruct_apply (z : (⟨2, ![4096, 32]⟩ : Shape).Idx → EReal) (u : (⟨2, ![16384, 32]⟩ : Shape).Idx → EReal)
    (b : Fin 4096) (n : Fin 16384) : reconstruct z u (ix2 b n) = ∑ r : Fin 32, z (ix2 b r) * u (ix2 n r) := rfl

end Cert.LowRank

end
-- ==== Proof.RefValue.lean ====
/-
  The reference, read at an index: its three host operations — the product of the spikes with `v`, the
  transpose of `u`, the product of the two — compose to `reconstruct (project s v) u`. The transpose only
  swaps the two coordinates at which `u` is read, so the second product's right factor at (r, n) is u[n, r].
-/
import proofs.«140076_j20349555048714_1_alg».proof.Proof.Gen.ReferenceIdeal.Read
import proofs.«140076_j20349555048714_1_alg».proof.Proof.LowRankSpec

noncomputable section

namespace Cert.ReferenceIdeal.RefValue

open Cert.ReferenceIdeal Cert.ReferenceIdeal.Read Idealize.ShloMosaic Idealize.ShloMosaic.ValueIdx Cert.LowRank

/-- The first product, at entry (b, r) and contraction position k, reads the spikes at (b, k) -/
theorem lidx0_eq (b : Fin 4096) (r : Fin 32) (k : Fin 16384) : lidx_main_v0 (ix2 b r) k = ix2 b k :=
  funext fun a => Fin.ext (by match a with | ⟨0, _⟩ => rfl | ⟨1, _⟩ => rfl)
/-- and `v` at (k, r). -/
theorem ridx0_eq (b : Fin 4096) (r : Fin 32) (k : Fin 16384) : ridx_main_v0 (ix2 b r) k = ix2 k r :=
  funext fun a => Fin.ext (by match a with | ⟨0, _⟩ => rfl | ⟨1, _⟩ => rfl)
/-- The second product, at entry (b, n) and contraction position r, reads the code at (b, r) -/
theorem lidx2_eq (b : Fin 4096) (n : Fin 16384) (r : Fin 32) : lidx_main_v2 (ix2 b n) r = ix2 b r :=
  funext fun a => Fin.ext (by match a with | ⟨0, _⟩ => rfl | ⟨1, _⟩ => rfl)
/-- and the transposed `u` at (r, n), which is `u` at (n, r). -/
theorem tidx_eq (b : Fin 4096) (n : Fin 16384) (r : Fin 32) : idx_main_v1 (ridx_main_v2 (ix2 b n) r) = ix2 n r :=
  funext fun a => Fin.ext (by match a with | ⟨0, _⟩ => rfl | ⟨1, _⟩ => rfl)

/-- The reference's result is the read-out of the code. -/
theorem result_eq (s : (⟨S4096x16384, .f32⟩ : BufTy).Contents (Elt Ideal)) (u v : (⟨S16384x32, .f32⟩ : BufTy).Contents (Elt Ideal)) :
    val_main_v2 (F := Ideal) s u v = reconstruct (project s v) u := by
  funext i
  obtain ⟨b, n, rfl⟩ : ∃ (b : Fin 4096) (n : Fin 16384), i = ix2 b n := ⟨i 0, i 1, eq_ix2 i⟩
  rw [val_main_v2_apply, reconstruct_apply]
  refine Finset.sum_congr rfl fun r _ => ?_
  rw [val_main_v0_apply, val_main_v1_apply, lidx2_eq, tidx_eq, project_apply]
  refine congrArg (· * u (ix2 n r)) (Finset.sum_congr rfl fun k _ => ?_)
  rw [lidx0_eq, ridx0_eq]

end Cert.ReferenceIdeal.RefValue

end
-- ==== Proof.Projection.lean ====
/-
  The first region: 32 grid points, point `t` holding rows 128·t … 128·t + 127 of the spikes and the whole of
  `v`, and writing rows 128·t … 128·t + 127 of the code. The body is one matrix product into a zero
  accumulator, its operands first narrowed to bf16 — at the extended reals a change of format is the identity —,
  so the block's entry (p, r) is ∑ k, s[128·t + p, k] · v[k, r]: the block of `project s v` at the point. The 32
  blocks tile the code's rows, so after the region the array IS `project s v` of the arrays the region found.
-/
import proofs.«140076_j20349555048714_1_alg».proof.Proof.Gen.KernelIdeal.Frame
import proofs.«140076_j20349555048714_1_alg».proof.Proof.LowRankSpec
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Cert.LowRank
open Idealize.ShloMosaic Idealize.ShloMosaic.TcCoe Idealize.ShloMosaic.ValueIdx Idealize.SL.Sem
open Idealize.ShloMosaic.Pipeline (Dat)

/-! ## The block product at an entry -/

/-- The product's left operand is read at the entry's row -/
theorem lhs_axis0 (i : S128x32.Idx) (q : dot_S128x16384_S16384x32_S128x32_1_0_0_1_n_n.contr.Idx) :
    (dot_S128x16384_S16384x32_S128x32_1_0_0_1_n_n.lhsIdx i q 0).val = (i 0).val := by
  unfold DotDims.lhsIdx
  rw [dif_neg (show ¬(0 : Fin S128x16384.rank) ∈ dot_S128x16384_S16384x32_S128x32_1_0_0_1_n_n.lhsBatch by decide), dif_pos (show (0 : Fin S128x16384.rank) ∈ dot_S128x16384_S16384x32_S128x32_1_0_0_1_n_n.lhsNonContracting by decide)]
  rfl
/-- and the contraction position; -/
theorem lhs_axis1 (i : S128x32.Idx) (q : dot_S128x16384_S16384x32_S128x32_1_0_0_1_n_n.contr.Idx) :
    (dot_S128x16384_S16384x32_S128x32_1_0_0_1_n_n.lhsIdx i q 1).val = (q ⟨0, by decide⟩).val :=
  dot_S128x16384_S16384x32_S128x32_1_0_0_1_n_n.lhsIdx_val_of_single rfl i q
/-- the right operand at the contraction position -/
theorem rhs_axis0 (i : S128x32.Idx) (q : dot_S128x16384_S16384x32_S128x32_1_0_0_1_n_n.contr.Idx) :
    (dot_S128x16384_S16384x32_S128x32_1_0_0_1_n_n.rhsIdx i q 0).val = (q ⟨0, by decide⟩).val :=
  dot_S128x16384_S16384x32_S128x32_1_0_0_1_n_n.rhsIdx_val_of_single rfl i q
/-- and the entry's column. -/
theorem rhs_axis1 (i : S128x32.Idx) (q : dot_S128x16384_S16384x32_S128x32_1_0_0_1_n_n.contr.Idx) :
    (dot_S128x16384_S16384x32_S128x32_1_0_0_1_n_n.rhsIdx i q 1).val = (i 1).val := by
  unfold DotDims.rhsIdx
  rw [dif_neg (show ¬(1 : Fin S16384x32.rank) ∈ dot_S128x16384_S16384x32_S128x32_1_0_0_1_n_n.rhsBatch by decide), dif_pos (show (1 : Fin S16384x32.rank) ∈ dot_S128x16384_S16384x32_S128x32_1_0_0_1_n_n.rhsNonContracting by decide)]
  rfl

/-- The body's stored value at entry (p, r): the row of the left block against the column of the right one. -/
theorem pay_apply (x0 : Vec Ideal S128x16384 .f32) (x1 : Vec Ideal S16384x32 .f32) (p : Fin 128) (r : Fin 32) :
    k0_pay1 (F := Ideal) x0 x1 (ix2 p r) = ∑ k : Fin 16384, x0 (ix2 p k) * x1 (ix2 k r) := by
  unfold k0_pay1
  simp only [matmul]
  rw [Ideal.matmul_constant_zero_apply, ← Equiv.sum_comp (contrEquiv1 dot_S128x16384_S16384x32_S128x32_1_0_0_1_n_n 16384 rfl rfl).symm]
  refine Finset.sum_congr rfl fun k _ => ?_
  have hk := contrEquiv1_symm_val dot_S128x16384_S16384x32_S128x32_1_0_0_1_n_n 16384 rfl rfl k
  have el : dot_S128x16384_S16384x32_S128x32_1_0_0_1_n_n.lhsIdx (ix2 p r) ((contrEquiv1 dot_S128x16384_S16384x32_S128x32_1_0_0_1_n_n 16384 rfl rfl).symm k) = ix2 p k := funext fun a => Fin.ext (by
    match a with
    | ⟨0, _⟩ => exact lhs_axis0 _ _
    | ⟨1, _⟩ => exact (lhs_axis1 _ _).trans hk)
  have er : dot_S128x16384_S16384x32_S128x32_1_0_0_1_n_n.rhsIdx (ix2 p r) ((contrEquiv1 dot_S128x16384_S16384x32_S128x32_1_0_0_1_n_n 16384 rfl rfl).symm k) = ix2 k r := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the spikes' block and the code's block both sit at row-block `t`, column-block 0;
    `v` is always its one whole block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the code of the arrays as the region finds them. -/
theorem flushed_eq (c : Dev nD) (t : Fin cfg0.N) :
    (dat0 V c).flushed 2 t = ((cfg0.win 2).blk t).view.read (Elt Ideal) (project (V c main_arg0) (V c main_arg2)) := by
  generalize hG : project (V c main_arg0) (V c main_arg2) = G
  show (cfg0.win 2).cut (grid0.coords t) ((dat0 V c).after 2 t) = _
  rw [after0_2]
  unfold out0_2
  rw [View.canon_unit_zero origin]
  simp only [View.ld_unit_zero (S := S128x16384) origin, View.ld_unit_zero (S := S16384x32) origin]
  obtain ⟨e0, e1, e2, e3, e4, e5⟩ := index_facts t
  funext j
  obtain ⟨p, r, rfl⟩ : ∃ (p : Fin 128) (r : Fin 32), j = ix2 p r := ⟨j 0, j 1, eq_ix2 j⟩
  refine (pay_apply (iblk0 V c 0 t) (iblk0 V c 1 t) p r).trans ?_
  have ht : t.val < 32 := N_0 ▸ t.isLt
  have hrow : t.val * 128 + p.val < 4096 := by have := p.isLt; omega
  have hout : ((cfg0.win 2).blk t).view.emb (ix2 p r) = ix2 (⟨t.val * 128 + p.val, hrow⟩ : Fin 4096) r := by
    funext a; apply Fin.ext
    match a with
    | ⟨0, _⟩ => show win0_2.index t (0 : Fin 2) * 128 + 1 * p.val = t.val * 128 + p.val; omega
    | ⟨1, _⟩ => show win0_2.index t (1 : Fin 2) * 32 + 1 * r.val = r.val; omega
  show _ = G (((cfg0.win 2).blk t).view.emb (ix2 p r))
  rw [hout, ← hG, project_apply]
  refine Finset.sum_congr rfl fun k _ => ?_
  have h0 : ((cfg0.win 0).blk t).view.emb (ix2 p k) = ix2 (⟨t.val * 128 + p.val, hrow⟩ : Fin 4096) k := by
    funext a; apply Fin.ext
    match a with
    | ⟨0, _⟩ => show win0_0.index t (0 : Fin 2) * 128 + 1 * p.val = t.val * 128 + p.val; omega
    | ⟨1, _⟩ => show win0_0.index t (1 : Fin 2) * 16384 + 1 * k.val = k.val; omega
  have h1 : ((cfg0.win 1).blk t).view.emb (ix2 k r) = ix2 k r := by
    funext a; apply Fin.ext
    match a with
    | ⟨0, _⟩ => show win0_1.index t (0 : Fin 2) * 16384 + 1 * k.val = k.val; omega
    | ⟨1, _⟩ => show win0_1.index t (1 : Fin 2) * 32 + 1 * r.val = r.val; omega
  exact congrArg₂ (fun a b : EReal => a * b) (congrArg (V c main_arg0) h0) (congrArg (V c main_arg2) h1)

/-- An index of the code is in point `t`'s block iff each coordinate is in the block's range on its axis. -/
theorem mem_blk (t : Fin cfg0.N) (i : S4096x32.Idx) :
    i ∈ ((cfg0.win 2).blk t).view.set ↔ ∀ a : Fin 2, win0_2.index t a * S128x32.size a ≤ (i a).val ∧ (i a).val < win0_2.index t a * S128x32.size a + S128x32.size a := by
  show i ∈ ((View.whole main_v0).slice (win0_2.rect t)).set ↔ _
  rw [View.set_slice_whole, Rect.mem_set_unit]
  exact Iff.rfl

/-- Row `b` of the code is written by point `b / 128`. -/
theorem cover (i : S4096x32.Idx) : ∃ t : Fin cfg0.N, (cfg0.win 2).flush t = true ∧ i ∈ ((cfg0.win 2).blk t).view.set := by
  have hi0 : (i 0).val < 4096 := (i 0).isLt
  have hi1 : (i 1).val < 32 := (i 1).isLt
  have hN := N_0
  let t : Fin cfg0.N := ⟨(i 0).val / 128, by show (i 0).val / 128 < grid0.N; omega⟩
  obtain ⟨e0, e1, e2, e3, e4, e5⟩ := index_facts t
  have ht : t.val = (i 0).val / 128 := rfl
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 32 ≤ (i 1).val ∧ (i 1).val < win0_2.index t (1 : Fin 2) * 32 + 32; omega

/-- After the region the code's array is `project` of the spikes and `v` as the region found them. -/
theorem final (c : Dev nD) : (dat0 V c).arrAt 2 cfg0.N = project (V c main_arg0) (V c main_arg2) :=
  (dat0 V c).arrAt_eq_of_cover 2 (project (V c main_arg0) (V c main_arg2)) (fun t _ => flushed_eq V c t) cover

end Cert.KernelIdeal.Projection

end
-- ==== Proof.Reconstruction.lean ====
/-
  The second region: a 4 × 4 grid, point `t` = (t / 4, t % 4) holding rows 1024·(t / 4) … of the code, rows
  4096·(t % 4) … of `u`, and writing the 1024 × 4096 block of the result at that row block and column block. The
  body is one matrix product into a zero accumulator that contracts the SECOND axis of both operands (no transpose is
  formed: entry (p, q) pairs row p of the code's block with row q of `u`'s block), after an identity reshape and a
  narrowing to bf16 that is the identity at the extended reals. So the block's entry (p, q) is
  ∑ r, z[1024·(t / 4) + p, r] · u[4096·(t % 4) + q, r]: the block of `reconstruct z u` at the point. The 16 blocks
  tile the result, so after the region the array IS `reconstruct z u` of the arrays the region found.
-/
import proofs.«140076_j20349555048714_1_alg».proof.Proof.Gen.KernelIdeal.Frame
import proofs.«140076_j20349555048714_1_alg».proof.Proof.LowRankSpec
import Idealize.ShloMosaic.Lib.Pipeline.Value
import Idealize.ShloMosaic.Lib.ValueIdx
import Idealize.ShloMosaic.PureOps.Ideal.Laws

set_option maxRecDepth 16384

noncomputable section

namespace Cert.KernelIdeal.Reconstruction

open Cert.KernelIdeal Cert.KernelIdeal.Gen Cert.LowRank
open Idealize.ShloMosaic Idealize.ShloMosaic.TcCoe Idealize.ShloMosaic.ValueIdx Idealize.SL.Sem
open Idealize.ShloMosaic.Pipeline (Dat)

/-! ## The block product at an entry -/

/-- The product's left operand is read at the entry's row -/
theorem lhs_axis0 (i : S1024x4096.Idx) (q : dot_S1024x32_S4096x32_S1024x4096_1_1_0_0_n_n.contr.Idx) :
    (dot_S1024x32_S4096x32_S1024x4096_1_1_0_0_n_n.lhsIdx i q 0).val = (i 0).val := by
  unfold DotDims.lhsIdx
  rw [dif_neg (show ¬(0 : Fin S1024x32.rank) ∈ dot_S1024x32_S4096x32_S1024x4096_1_1_0_0_n_n.lhsBatch by decide), dif_pos (show (0 : Fin S1024x32.rank) ∈ dot_S1024x32_S4096x32_S1024x4096_1_1_0_0_n_n.lhsNonContracting by decide)]
  rfl
/-- and the contraction position; -/
theorem lhs_axis1 (i : S1024x4096.Idx) (q : dot_S1024x32_S4096x32_S1024x4096_1_1_0_0_n_n.contr.Idx) :
    (dot_S1024x32_S4096x32_S1024x4096_1_1_0_0_n_n.lhsIdx i q 1).val = (q ⟨0, by decide⟩).val :=
  dot_S1024x32_S4096x32_S1024x4096_1_1_0_0_n_n.lhsIdx_val_of_single rfl i q
/-- the right operand at the entry's COLUMN, on its first axis, -/
theorem rhs_axis0 (i : S1024x4096.Idx) (q : dot_S1024x32_S4096x32_S1024x4096_1_1_0_0_n_n.contr.Idx) :
    (dot_S1024x32_S4096x32_S1024x4096_1_1_0_0_n_n.rhsIdx i q 0).val = (i 1).val := by
  unfold DotDims.rhsIdx
  rw [dif_neg (show ¬(0 : Fin S4096x32.rank) ∈ dot_S1024x32_S4096x32_S1024x4096_1_1_0_0_n_n.rhsBatch by decide), dif_pos (show (0 : Fin S4096x32.rank) ∈ dot_S1024x32_S4096x32_S1024x4096_1_1_0_0_n_n.rhsNonContracting by decide)]
  rfl
/-- and the contraction position on its second. -/
theorem rhs_axis1 (i : S1024x4096.Idx) (q : dot_S1024x32_S4096x32_S1024x4096_1_1_0_0_n_n.contr.Idx) :
    (dot_S1024x32_S4096x32_S1024x4096_1_1_0_0_n_n.rhsIdx i q 1).val = (q ⟨0, by decide⟩).val :=
  dot_S1024x32_S4096x32_S1024x4096_1_1_0_0_n_n.rhsIdx_val_of_single rfl i q

/-- The body's stored value at entry (p, q): row p of the left block against row q of the right one. -/
theorem pay_apply (x0 : Vec Ideal S1024x32 .f32) (x1 : Vec Ideal S4096x32 .f32) (p : Fin 1024) (q : Fin 4096) :
    k1_pay1 (F := Ideal) x0 x1 (ix2 p q) = ∑ r : Fin 32, x0 (ix2 p r) * x1 (ix2 q r) := by
  unfold k1_pay1
  simp only [matmul]
  rw [Ideal.matmul_constant_zero_apply, ← Equiv.sum_comp (contrEquiv1 dot_S1024x32_S4096x32_S1024x4096_1_1_0_0_n_n 32 rfl rfl).symm]
  refine Finset.sum_congr rfl fun r _ => ?_
  have hr := contrEquiv1_symm_val dot_S1024x32_S4096x32_S1024x4096_1_1_0_0_n_n 32 rfl rfl r
  have el : dot_S1024x32_S4096x32_S1024x4096_1_1_0_0_n_n.lhsIdx (ix2 p q) ((contrEquiv1 dot_S1024x32_S4096x32_S1024x4096_1_1_0_0_n_n 32 rfl rfl).symm r) = ix2 p r := funext fun a => Fin.ext (by
    match a with
    | ⟨0, _⟩ => exact lhs_axis0 _ _
    | ⟨1, _⟩ => exact (lhs_axis1 _ _).trans hr)
  have er : dot_S1024x32_S4096x32_S1024x4096_1_1_0_0_n_n.rhsIdx (ix2 p q) ((contrEquiv1 dot_S1024x32_S4096x32_S1024x4096_1_1_0_0_n_n 32 rfl rfl).symm r) = ix2 q r := funext fun a => Fin.ext (by
    match a with
    | ⟨0, _⟩ => exact rhs_axis0 _ _
    | ⟨1, _⟩ => exact (rhs_axis1 _ _).trans hr)
  rw [el, er, shapeCast_self]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the code's block sits at row-block `t / 4`, `u`'s at row-block `t % 4`, the
    result's at (`t / 4`, `t % 4`). -/
theorem index_facts : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

/-- What point `t` writes back is block `t` of the read-out of the arrays as the region finds them. -/
theorem flushed_eq (c : Dev nD) (t : Fin cfg1.N) :
    (dat1 V c).flushed 2 t = ((cfg1.win 2).blk t).view.read (Elt Ideal) (reconstruct (V c main_v0) (V c main_arg1)) := by
  generalize hG : reconstruct (V c main_v0) (V c main_arg1) = G
  show (cfg1.win 2).cut (grid1.coords t) ((dat1 V c).after 2 t) = _
  rw [after1_2]
  unfold out1_2
  rw [View.canon_unit_zero origin]
  simp only [View.ld_unit_zero (S := S1024x32) origin, View.ld_unit_zero (S := S4096x32) origin]
  obtain ⟨e0, e1, e2, e3, e4, e5⟩ := index_facts t
  funext j
  obtain ⟨p, q, rfl⟩ : ∃ (p : Fin 1024) (q : Fin 4096), j = ix2 p q := ⟨j 0, j 1, eq_ix2 j⟩
  refine (pay_apply (iblk1 V c 0 t) (iblk1 V c 1 t) p q).trans ?_
  have ht : t.val < 16 := N_1 ▸ t.isLt
  have hrow : t.val / 4 * 1024 + p.val < 4096 := by have := p.isLt; omega
  have hcol : t.val % 4 * 4096 + q.val < 16384 := by have := q.isLt; omega
  have hout : ((cfg1.win 2).blk t).view.emb (ix2 p q)
      = ix2 (⟨t.val / 4 * 1024 + p.val, hrow⟩ : Fin 4096) (⟨t.val % 4 * 4096 + q.val, hcol⟩ : Fin 16384) := by
    funext a; apply Fin.ext
    match a with
    | ⟨0, _⟩ => show win1_2.index t (0 : Fin 2) * 1024 + 1 * p.val = t.val / 4 * 1024 + p.val; omega
    | ⟨1, _⟩ => show win1_2.index t (1 : Fin 2) * 4096 + 1 * q.val = t.val % 4 * 4096 + q.val; omega
  show _ = G (((cfg1.win 2).blk t).view.emb (ix2 p q))
  rw [hout, ← hG, reconstruct_apply]
  refine Finset.sum_congr rfl fun r _ => ?_
  have h0 : ((cfg1.win 0).blk t).view.emb (ix2 p r) = ix2 (⟨t.val / 4 * 1024 + p.val, hrow⟩ : Fin 4096) r := by
    funext a; apply Fin.ext
    match a with
    | ⟨0, _⟩ => show win1_0.index t (0 : Fin 2) * 1024 + 1 * p.val = t.val / 4 * 1024 + p.val; omega
    | ⟨1, _⟩ => show win1_0.index t (1 : Fin 2) * 32 + 1 * r.val = r.val; omega
  have h1 : ((cfg1.win 1).blk t).view.emb (ix2 q r) = ix2 (⟨t.val % 4 * 4096 + q.val, hcol⟩ : Fin 16384) r := by
    funext a; apply Fin.ext
    match a with
    | ⟨0, _⟩ => show win1_1.index t (0 : Fin 2) * 4096 + 1 * q.val = t.val % 4 * 4096 + q.val; omega
    | ⟨1, _⟩ => show win1_1.index t (1 : Fin 2) * 32 + 1 * r.val = r.val; omega
  exact congrArg₂ (fun a b : EReal => a * b) (congrArg (V c main_v0) h0) (congrArg (V c main_arg1) h1)

/-- An index of the result is in point `t`'s block iff each coordinate is in the block's range on its axis. -/
theorem mem_blk (t : Fin cfg1.N) (i : S4096x16384.Idx) :
    i ∈ ((cfg1.win 2).blk t).view.set ↔ ∀ a : Fin 2, win1_2.index t a * S1024x4096.size a ≤ (i a).val ∧ (i a).val < win1_2.index t a * S1024x4096.size a + S1024x4096.size a := by
  show i ∈ ((View.whole main_v1).slice (win1_2.rect t)).set ↔ _
  rw [View.set_slice_whole, Rect.mem_set_unit]
  exact Iff.rfl

/-- Entry (b, n) of the result is written by the point at row block `b / 1024`, column block `n / 4096`. -/
theorem cover (i : S4096x16384.Idx) : ∃ t : Fin cfg1.N, (cfg1.win 2).flush t = true ∧ i ∈ ((cfg1.win 2).blk t).view.set := by
  have hi0 : (i 0).val < 4096 := (i 0).isLt
  have hi1 : (i 1).val < 16384 := (i 1).isLt
  have hN := N_1
  let t : Fin cfg1.N := ⟨(i 0).val / 1024 * 4 + (i 1).val / 4096, by show (i 0).val / 1024 * 4 + (i 1).val / 4096 < grid1.N; omega⟩
  obtain ⟨e0, e1, e2, e3, e4, e5⟩ := index_facts t
  have ht : t.val = (i 0).val / 1024 * 4 + (i 1).val / 4096 := rfl
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 4096 ≤ (i 1).val ∧ (i 1).val < win1_2.index t (1 : Fin 2) * 4096 + 4096; omega

/-- After the region the result's array is `reconstruct` of the code and `u` as the region found them. -/
theorem final (c : Dev nD) : (dat1 V c).arrAt 2 cfg1.N = reconstruct (V c main_v0) (V c main_arg1) :=
  (dat1 V c).arrAt_eq_of_cover 2 (reconstruct (V c main_v0) (V c main_arg1)) (fun t _ => flushed_eq V c t) cover

end Cert.KernelIdeal.Reconstruction

end
-- ==== Proof.KernelValue.lean ====
/-
  The kernel's result as one function of the arguments. The run's boundary contents are a fold: the second region is
  entered with the code's array at what the first region's write-backs left — `project s v` of the launch arrays — and
  with `u` untouched (the first region has no window on it), and leaves the result's array at `reconstruct` of those
  two. So the result is `reconstruct (project s v) u` of the launch contents of the three float arguments.
-/
import proofs.«140076_j20349555048714_1_alg».proof.Proof.KernelRun
import proofs.«140076_j20349555048714_1_alg».proof.Proof.Projection
import proofs.«140076_j20349555048714_1_alg».proof.Proof.Reconstruction

set_option maxRecDepth 16384

noncomputable section

namespace Cert.KernelIdeal.KernelValue

open Cert.KernelIdeal Cert.KernelIdeal.Gen Cert.LowRank
open Idealize.ShloMosaic Idealize.ShloMosaic.TcCoe Idealize.SL.Sem

variable (m : (ℓ : Loc nD τ sig) → Buf (Elt Ideal) ℓ) (ρ : Dev nD → PrngReg)

/-- The code's array, as the second region finds it, is the projection of the launch arrays. -/
theorem code_eq (c : Dev nD) :
    V1 m ρ c main_v0 = project (m ((c : Thread nD τ).loc main_arg0)) (m ((c : Thread nD τ).loc main_arg2)) :=
  (W1_arr m ρ c 2).trans (Projection.final (V0 m ρ) c)

/-- `u`, as the second region finds it, is as launched. -/
theorem u_kept (c : Dev nD) : V1 m ρ c main_arg1 = m ((c : Thread nD τ).loc main_arg1) :=
  W1_of_ne m ρ c main_arg1 (by decide)

/-- The result's array after the second region is the read-out of the projection. -/
theorem result_eq (c : Dev nD) :
    V2 m ρ c main_v1 = reconstruct (project (m ((c : Thread nD τ).loc main_arg0)) (m ((c : Thread nD τ).loc main_arg2)))
      (m ((c : Thread nD τ).loc main_arg1)) := by
  refine (W2_arr m ρ c 2).trans ((Reconstruction.final (V1 m ρ) c).trans ?_)
  rw [code_eq, u_kept]

/-- Every weakly fair execution of the idealized kernel's @main terminates with the result array at
    `reconstruct (project s v) u` of the launch arrays, and the arguments unchanged. -/
theorem run : θ_run defs (onTc (τ := τ) (main (F := Ideal))) ⟨m, fun _ => 0, ρ⟩ (fun r => ∀ c : Dev nD,
      r.2.mem ((c.tc : Thread nD τ).loc main_v1)
        = reconstruct (project (m ((c : Thread nD τ).loc main_arg0)) (m ((c : Thread nD τ).loc main_arg2))) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (ValueRun.run_main m ρ)

end Cert.KernelIdeal.KernelValue

end
-- ==== Proof.lean ====
/-
  The low-rank projection y = (s · v) · uᵀ, as a two-launch kernel against two host matrix products.

  The kernel forms the code z = s · v in a first launch (row blocks of 128, the whole contraction in one product) and
  the result y = z · uᵀ in a second (1024 × 4096 blocks, contracting the second axis of both operands, so no transpose is
  formed); its operands are narrowed to bf16 before each product, which at the extended reals is the identity. The
  reference multiplies the spikes by `v`, transposes `u`, and multiplies again. Entry by entry both are
      y[b, n] = ∑ r, (∑ k, s[b, k] · v[k, r]) · u[n, r],
  the inner sum formed first on both sides, so the two results are the same term of the arguments and no law of the
  extended reals (hence no finiteness) is needed: the precondition is never opened. The three index arrays of the
  interface are read by neither program.

  The frames of the two kernel programs are the generated ones; the reference's frame is its generated run with the
  result dropped; no operation was rewritten by the idealization, so `preserves` is `True`.
-/
import proofs.«140076_j20349555048714_1_alg».proof.Defs
import proofs.«140076_j20349555048714_1_alg».proof.Proof.Gen.Kernel
import proofs.«140076_j20349555048714_1_alg».proof.Proof.Gen.Kernel.Skeleton
import proofs.«140076_j20349555048714_1_alg».proof.Proof.Gen.Kernel.Launch
import proofs.«140076_j20349555048714_1_alg».proof.Proof.Gen.Kernel.Points
import proofs.«140076_j20349555048714_1_alg».proof.Proof.Gen.Kernel.Frame
import proofs.«140076_j20349555048714_1_alg».proof.Proof.Gen.KernelIdeal
import proofs.«140076_j20349555048714_1_alg».proof.Proof.Gen.KernelIdeal.Skeleton
import proofs.«140076_j20349555048714_1_alg».proof.Proof.Gen.KernelIdeal.Launch
import proofs.«140076_j20349555048714_1_alg».proof.Proof.Gen.KernelIdeal.Points
import proofs.«140076_j20349555048714_1_alg».proof.Proof.Gen.KernelIdeal.Frame
import proofs.«140076_j20349555048714_1_alg».proof.Proof.Gen.ReferenceIdeal
import proofs.«140076_j20349555048714_1_alg».proof.Proof.Gen.ReferenceIdeal.Run
import proofs.«140076_j20349555048714_1_alg».proof.Proof.Gen.ReferenceIdeal.Read
import proofs.«140076_j20349555048714_1_alg».proof.Proof.Gen.Pre_finite_inputs
import proofs.«140076_j20349555048714_1_alg».proof.Proof.LowRankSpec
import proofs.«140076_j20349555048714_1_alg».proof.Proof.RefValue
import proofs.«140076_j20349555048714_1_alg».proof.Proof.KernelValue
import Idealize.ShloMosaic.Adequacy
import Idealize.ShloMosaic.Init

noncomputable section

namespace Cert.Proof

open Idealize.ShloMosaic Idealize.ShloMosaic.TcCoe Idealize.SL.Sem Cert.LowRank

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at `reconstruct (project s v) u` of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
